-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S4000000x4 : Shape := ⟨2, ![4000000, 4]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S4000000x4 : S_.BroadcastsInDim S4000000x4 (![] : Fin 0 → Fin S4000000x4.rank)
  reducesTo_S4000000x4_S_d0_1 : S4000000x4.ReducesTo [0, 1] S_

variable [Facts]

def fn {F : FTy → Type} [FloatOps F] (main_arg0 : FVec F S4000000x3 .f32) (main_arg1 : FVec F S4000000x4 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S4000000x4 .f32 := Host.absf main_arg1
  let main_cst_0 : FVec F S_ .f32 := constant S_ .f32 0x7F800000#32
  let main_v5 : FVec F S4000000x4 .f32 := broadcastInDim S4000000x4 ![] bcast_S_S4000000x4 main_cst_0
  let main_v6 : IVec S4000000x4 1 := cmpf .olt main_v4 main_v5
  let main_c_1 : IVec S_ 1 := constantI S_ 1 1#1
  let main_v7 : IVec S_ 1 := (fun x v => Host.reduce IntOp.andi x v reducesTo_S4000000x4_S_d0_1 h_S_) main_v6 main_c_1
  let main_v8 : IVec S_ 1 := andi main_v3 main_v7
  main_v8
-- ==== Kernel.lean ====
abbrev S4000000x3 : Shape := ⟨2, ![4000000, 3]⟩
abbrev S4000000x4 : Shape := ⟨2, ![4000000, 4]⟩
abbrev S4000000x6 : Shape := ⟨2, ![4000000, 6]⟩
abbrev S3200x3 : Shape := ⟨2, ![3200, 3]⟩
abbrev S3200x4 : Shape := ⟨2, ![3200, 4]⟩
abbrev S3200x6 : Shape := ⟨2, ![3200, 6]⟩
abbrev S3200 : Shape := ⟨1, ![3200]⟩
abbrev S3200x1 : Shape := ⟨2, ![3200, 1]⟩

abbrev nBuf : Space → Nat
  | .hbm => 3
  | .vmem => 6
  | .smem => 0
  | _ => 0

abbrev bufTy : (tb : Table) → Fin (tcTables nBuf tb) → BufTy
  | .hbm, ⟨0, _⟩ => ⟨S4000000x3, .f32⟩
  | .hbm, ⟨1, _⟩ => ⟨S4000000x4, .f32⟩
  | .hbm, ⟨2, _⟩ => ⟨S4000000x6, .f32⟩
  | .local _ .vmem, ⟨0, _⟩ => ⟨S3200x3, .f32⟩
  | .local _ .vmem, ⟨1, _⟩ => ⟨S3200x3, .f32⟩
  | .local _ .vmem, ⟨2, _⟩ => ⟨S3200x4, .f32⟩
  | .local _ .vmem, ⟨3, _⟩ => ⟨S3200x4, .f32⟩
  | .local _ .vmem, ⟨4, _⟩ => ⟨S3200x6, .f32⟩
  | .local _ .vmem, ⟨5, _⟩ => ⟨S3200x6, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![1250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S3200x3_S3200x3_0_0 : ∀ a, (![0, 0] : Fin 2 → Nat) a + S3200x3.size a ≤ S3200x3.size a
  h_S3200x3 : 0 < S3200x3.numel
  inb_S3200x4_S3200x4_0_0 : ∀ a, (![0, 0] : Fin 2 → Nat) a + S3200x4.size a ≤ S3200x4.size a
  h_S3200x4 : 0 < S3200x4.numel
  reduces_S3200x4_S3200 : S3200x4.Reduces [1] S3200
  shapeCasts_S3200_S3200x1 : S3200.ShapeCasts S3200x1
  broadcasts_S3200x1_S3200x4 : S3200x1.Broadcasts S3200x4
  slices_S3200x4_o0_0_S3200x1 : S3200x4.Slices ![0, 0] S3200x1
  slices_S3200x4_o0_1_S3200x1 : S3200x4.Slices ![0, 1] S3200x1
  slices_S3200x4_o0_2_S3200x1 : S3200x4.Slices ![0, 2] S3200x1
  slices_S3200x4_o0_3_S3200x1 : S3200x4.Slices ![0, 3] S3200x1
  slices_S3200x3_o0_0_S3200x1 : S3200x3.Slices ![0, 0] S3200x1
  slices_S3200x3_o0_1_S3200x1 : S3200x3.Slices ![0, 1] S3200x1
  slices_S3200x3_o0_2_S3200x1 : S3200x3.Slices ![0, 2] S3200x1
  concatenates_S3200x1_S3200x1_S3200x1_S3200x1_S3200x1_S3200x1_S3200x6_d1 : Shape.Concatenates [S3200x1, S3200x1, S3200x1, S3200x1, S3200x1, S3200x1] S3200x6 1
  inb_S3200x6_S3200x6_0_0 : ∀ a, (![0, 0] : Fin 2 → Nat) a + S3200x6.size a ≤ S3200x6.size a
  h_S3200x6 : 0 < S3200x6.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x3.size a ≤ S4000000x3.size a
  hwx0_0 : ∀ i : grid0.Coords, EltTy.bits .f32 = 32 ∨ (Rect.block (s := S4000000x3) S3200x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x4.size a ≤ S4000000x4.size a
  hwx0_1 : ∀ i : grid0.Coords, EltTy.bits .f32 = 32 ∨ (Rect.block (s := S4000000x4) S3200x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x6.size a ≤ S4000000x6.size a
  hwx0_2 : ∀ i : grid0.Coords, EltTy.bits .f32 = 32 ∨ (Rect.block (s := S4000000x6) S3200x6.size (cc0_transform_2 i) (hinb0_2 i)).WholeWords (EltTy.packing .f32)

variable [Facts₀]

abbrev win0_0 : Pipeline.Window sig grid0 :=
  Pipeline.Window.ofSpec (Memref.whole main_arg0) S3200x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3200x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3200x6.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000x4 : Shape := ⟨2, ![4000000, 4]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩
abbrev S4000000x1x1 : Shape := ⟨3, ![4000000, 1, 1]⟩
abbrev S4000000x6 : Shape := ⟨2, ![4000000, 6]⟩

abbrev nBuf : Space → Nat
  | .hbm => 131
  | .vmem => 0
  | .smem => 0
  | _ => 0

abbrev hbmTy0_0 (i : Nat) : BufTy := match i % 128 with
  | 0 => ⟨S4000000x3, .f32⟩
  | 1 => ⟨S4000000x4, .f32⟩
  | 2 => ⟨S4000000x3, .f32⟩
  | 3 => ⟨S4000000x3, .f32⟩
  | 4 => ⟨S_, .f32⟩
  | 5 => ⟨S4000000x3, .f32⟩
  | 6 => ⟨S4000000x3, .f32⟩
  | 7 => ⟨S_, .f32⟩
  | 8 => ⟨S4000000x3, .f32⟩
  | 9 => ⟨S4000000x3, .f32⟩
  | 10 => ⟨S_, .f32⟩
  | 11 => ⟨S4000000x3, .f32⟩
  | 12 => ⟨S4000000x3, .f32⟩
  | 13 => ⟨S_, .f32⟩
  | 14 => ⟨S4000000x3, .f32⟩
  | 15 => ⟨S4000000x3, .f32⟩
  | 16 => ⟨S_, .f32⟩
  | 17 => ⟨S4000000x3, .f32⟩
  | 18 => ⟨S4000000x3, .f32⟩
  | 19 => ⟨S4000000x4, .f32⟩
  | 20 => ⟨S_, .f32⟩
  | 21 => ⟨S4000000, .f32⟩
  | 22 => ⟨S4000000x1, .f32⟩
  | 23 => ⟨S4000000x1, .f32⟩
  | 24 => ⟨S4000000x4, .f32⟩
  | 25 => ⟨S4000000x4, .f32⟩
  | 26 => ⟨S4000000x1, .f32⟩
  | 27 => ⟨S4000000, .f32⟩
  | 28 => ⟨S4000000x1, .f32⟩
  | 29 => ⟨S4000000, .f32⟩
  | 30 => ⟨S4000000x1, .f32⟩
  | 31 => ⟨S4000000, .f32⟩
  | 32 => ⟨S4000000x1, .f32⟩
  | 33 => ⟨S4000000, .f32⟩
  | 34 => ⟨S4000000, .f32⟩
  | 35 => ⟨S4000000, .f32⟩
  | 36 => ⟨S4000000, .f32⟩
  | 37 => ⟨S_, .f32⟩
  | 38 => ⟨S4000000, .f32⟩
  | 39 => ⟨S4000000, .f32⟩
  | 40 => ⟨S_, .f32⟩
  | 41 => ⟨S4000000, .f32⟩
  | 42 => ⟨S4000000, .f32⟩
  | 43 => ⟨S4000000, .f32⟩
  | 44 => ⟨S4000000, .f32⟩
  | 45 => ⟨S4000000, .f32⟩
  | 46 => ⟨S_, .f32⟩
  | 47 => ⟨S4000000, .f32⟩
  | 48 => ⟨S4000000, .f32⟩
  | 49 => ⟨S4000000, .f32⟩
  | 50 => ⟨S4000000, .f32⟩
  | 51 => ⟨S4000000, .f32⟩
  | 52 => ⟨S_, .f32⟩
  | 53 => ⟨S4000000, .f32⟩
  | 54 => ⟨S4000000, .f32⟩
  | 55 => ⟨S4000000, .f32⟩
  | 56 => ⟨S4000000, .f32⟩
  | 57 => ⟨S4000000, .f32⟩
  | 58 => ⟨S_, .f32⟩
  | 59 => ⟨S4000000, .f32⟩
  | 60 => ⟨S4000000, .f32⟩
  | 61 => ⟨S4000000, .f32⟩
  | 62 => ⟨S4000000, .f32⟩
  | 63 => ⟨S4000000, .f32⟩
  | 64 => ⟨S_, .f32⟩
  | 65 => ⟨S4000000, .f32⟩
  | 66 => ⟨S4000000, .f32⟩
  | 67 => ⟨S_, .f32⟩
  | 68 => ⟨S4000000, .f32⟩
  | 69 => ⟨S4000000, .f32⟩
  | 70 => ⟨S4000000, .f32⟩
  | 71 => ⟨S4000000, .f32⟩
  | 72 => ⟨S4000000, .f32⟩
  | 73 => ⟨S_, .f32⟩
  | 74 => ⟨S4000000, .f32⟩
  | 75 => ⟨S4000000, .f32⟩
  | 76 => ⟨S4000000, .f32⟩
  | 77 => ⟨S4000000, .f32⟩
  | 78 => ⟨S4000000, .f32⟩
  | 79 => ⟨S_, .f32⟩
  | 80 => ⟨S4000000, .f32⟩
  | 81 => ⟨S4000000, .f32⟩
  | 82 => ⟨S4000000, .f32⟩
  | 83 => ⟨S4000000, .f32⟩
  | 84 => ⟨S4000000, .f32⟩
  | 85 => ⟨S_, .f32⟩
  | 86 => ⟨S4000000, .f32⟩
  | 87 => ⟨S4000000, .f32⟩
  | 88 => ⟨S4000000, .f32⟩
  | 89 => ⟨S4000000, .f32⟩
  | 90 => ⟨S4000000, .f32⟩
  | 91 => ⟨S_, .f32⟩
  | 92 => ⟨S4000000, .f32⟩
  | 93 => ⟨S4000000, .f32⟩
  | 94 => ⟨S_, .f32⟩
  | 95 => ⟨S4000000, .f32⟩
  | 96 => ⟨S4000000, .f32⟩
  | 97 => ⟨S4000000x1, .f32⟩
  | 98 => ⟨S4000000x1, .f32⟩
  | 99 => ⟨S4000000x1, .f32⟩
  | 100 => ⟨S4000000x1, .f32⟩
  | 101 => ⟨S4000000x1, .f32⟩
  | 102 => ⟨S4000000x1, .f32⟩
  | 103 => ⟨S4000000x1, .f32⟩
  | 104 => ⟨S4000000x1, .f32⟩
  | 105 => ⟨S4000000x1, .f32⟩
  | 106 => ⟨S4000000x9, .f32⟩
  | 107 => ⟨S4000000x3x3, .f32⟩
  | 108 => ⟨S4000000x1x3, .f32⟩
  | 109 => ⟨S4000000x3x3, .f32⟩
  | 110 => ⟨S4000000x3x3, .f32⟩
  | 111 => ⟨S4000000x3x3, .f32⟩
  | 112 => ⟨S4000000x1x1, .f32⟩
  | 113 => ⟨S4000000, .f32⟩
  | 114 => ⟨S4000000x1x1, .f32⟩
  | 115 => ⟨S4000000, .f32⟩
  | 116 => ⟨S4000000x1x1, .f32⟩
  | 117 => ⟨S4000000, .f32⟩
  | 118 => ⟨S4000000x1x1, .f32⟩
  | 119 => ⟨S4000000, .f32⟩
  | 120 => ⟨S4000000x1x1, .f32⟩
  | 121 => ⟨S4000000, .f32⟩
  | 122 => ⟨S4000000x1x1, .f32⟩
  | 123 => ⟨S4000000, .f32⟩
  | 124 => ⟨S4000000x1, .f32⟩
  | 125 => ⟨S4000000x1, .f32⟩
  | 126 => ⟨S4000000x1, .f32⟩
  | 127 => ⟨S4000000x1, .f32⟩
  | _ => ⟨S4000000x3, .f32⟩

abbrev hbmTy0_1 (i : Nat) : BufTy := match i % 128 with
  | 0 => ⟨S4000000x1, .f32⟩
  | 1 => ⟨S4000000x1, .f32⟩
  | 2 => ⟨S4000000x6, .f32⟩
  | _ => ⟨S4000000x3, .f32⟩

abbrev hbmTy (i : Nat) : BufTy := match i / 128 with
  | 0 => hbmTy0_0 i
  | 1 => hbmTy0_1 i
  | _ => ⟨S4000000x3, .f32⟩

abbrev bufTy : (tb : Table) → Fin (tcTables nBuf tb) → BufTy
  | .hbm, ⟨i, _⟩ => hbmTy i
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩

abbrev nD : Nat := 1
abbrev τ : Topo := Topo.v7x

variable {F : FTy → Type} [FloatOps F]

class Facts₀ : Prop where
  bcast_S_S4000000x3 : S_.BroadcastsInDim S4000000x3 (![] : Fin 0 → Fin S4000000x3.rank)
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  slices_S4000000x3x3_S4000000x1x1_0_0_0 : S4000000x3x3.Slices ![0, 0, 0] S4000000x1x1
  shapeCasts_S4000000x1x1_S4000000 : S4000000x1x1.ShapeCasts S4000000
  slices_S4000000x3x3_S4000000x1x1_0_0_1 : S4000000x3x3.Slices ![0, 0, 1] S4000000x1x1
  slices_S4000000x3x3_S4000000x1x1_0_0_2 : S4000000x3x3.Slices ![0, 0, 2] S4000000x1x1
  slices_S4000000x3x3_S4000000x1x1_0_1_1 : S4000000x3x3.Slices ![0, 1, 1] S4000000x1x1
  slices_S4000000x3x3_S4000000x1x1_0_1_2 : S4000000x3x3.Slices ![0, 1, 2] S4000000x1x1
  slices_S4000000x3x3_S4000000x1x1_0_2_2 : S4000000x3x3.Slices ![0, 2, 2] S4000000x1x1
  concatenates_S4000000x1_S4000000x1_S4000000x1_S4000000x1_S4000000x1_S4000000x1_S4000000x6_d1 : Shape.Concatenates [S4000000x1, S4000000x1, S4000000x1, S4000000x1, S4000000x1, S4000000x1] S4000000x6 1
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.LibKeepdims.lean ====
/-
  Keepdims column forms and row-sum normalisation, read at an index (extended reals, the ideal instance).

  A row sum kept as a column — `[a] → [a, 1]` by a shape cast (a kernel) or by a `broadcast_in_dim` along axis 0 (the
  host) — and that column laid back over the columns of an `[a, b]` matrix — by a vector broadcast (a kernel) or a
  `broadcast_in_dim` along axes 0 and 1 (the host) — read, at `(i, j)`, the vector's entry `i`. With them, "divide every
  entry of a matrix by the sum of its row" is read at `(r, k)` as `x (r, k) / ∑ k', x (r, k')` in both spellings, and a plain
  `m × k` by `k × n` product accumulated into a zero splat (a kernel) or with no accumulator (the host) as
  `∑ c, A (a, c) * B (c, b)`.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.LibKeepdims

open Idealize.ShloMosaic Idealize.ShloMosaic.ValueIdx

variable {α : Type}

/-- Over a rank-2 shape reduced along axis 1, the source index above row `r` with coordinate `k` on the dropped axis is `(r, k)`. -/
theorem lift_ix1 {a b : ℕ} (h : (⟨2, ![a, b]⟩ : Shape).Reduces [(1 : Fin 2)] ⟨1, ![a]⟩) (r : Fin a) (k : Fin b) :
    h.lift (ix1 r) k = ix2 r k :=
  funext fun c => Fin.ext (match c with | ⟨0, _⟩ => rfl | ⟨1, _⟩ => rfl)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over the columns of `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a]` vector along axis 0 of `[a, 1]` reads, at `(i, u)`, the vector at `i`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- The host's `broadcast_in_dim` of a column `[a, 1]` along axes 0 and 1 of `[a, b]` reads, at `(p, c)`, the column at row `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-! ## Every entry divided by the sum of its row -/

/-- A kernel's spelling: the lane sum over axis 1 (accumulator the neutral zero), cast to a column, broadcast back over the
    columns, and the quotient — at `(r, k)` it is `y (r, k) / ∑ k', y (r, k')`. -/
theorem divRowSum_kernel_apply {a b : ℕ} (y : FVec Ideal ⟨2, ![a, b]⟩ .f32)
    (h : (⟨2, ![a, b]⟩ : Shape).Reduces [(1 : Fin 2)] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf y (broadcastTo ⟨2, ![a, b]⟩ (shapeCast ⟨2, ![a, 1]⟩ (multiReduction .add [(1 : Fin 2)] ⟨1, ![a]⟩ y 0x00000000#32 h hφ hacc) hc) hb) (ix2 r k)
      = Ideal.div (y (ix2 r k)) (∑ k' : Fin b, y (ix2 r k')) := by
  refine congrArg (Ideal.div (y (ix2 r k))) ?_
  refine (broadcastTo_a1_ab_apply _ hb r k).trans ?_
  refine (shapeCast_a_a1_apply _ hc r 0).trans ?_
  refine (Ideal.multiReduction_add_single y _ h hφ hacc (ix1 r)).trans ?_
  exact Finset.sum_congr rfl fun k' _ => congrArg y (lift_ix1 h r k')

/-- The host's spelling: `stablehlo.reduce` with add over axis 1 from an initial zero, `broadcast_in_dim` to a column and then
    over the matrix, and `stablehlo.divide` — the same quotient at `(r, k)`. -/
theorem divRowSum_host_apply {a b : ℕ} {u : Shape} (y : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < u.numel)
    (d1 : Fin 1 → Fin 2) (hd1 : d1 0 = 0) (hb1 : (⟨1, ![a]⟩ : Shape).BroadcastsInDim ⟨2, ![a, 1]⟩ d1)
    (d2 : Fin 2 → Fin 2) (hd20 : d2 0 = 0) (hd21 : d2 1 = 1) (hb2 : (⟨2, ![a, 1]⟩ : Shape).BroadcastsInDim ⟨2, ![a, b]⟩ d2)
    (r : Fin a) (k : Fin b) :
    Host.divf y (broadcastInDim ⟨2, ![a, b]⟩ d2 hb2 (broadcastInDim ⟨2, ![a, 1]⟩ d1 hb1
        (Host.reduceAdd y (constant (F := Ideal) u .f32 0x00000000#32) h' hu))) (ix2 r k)
      = Ideal.div (y (ix2 r k)) (∑ k' : Fin b, y (ix2 r k')) := by
  refine congrArg (Ideal.div (y (ix2 r k))) ?_
  refine (broadcastInDim_a1_ab_apply d2 hd20 hd21 hb2 _ r k).trans ?_
  refine (broadcastInDim_a_a1_apply d1 hd1 hb1 _ r 0).trans ?_
  show Ideal.hostReduceAdd h' y (Ideal.ofBits .f32 0x00000000#32) (ix1 r) = _
  rw [Ideal.hostReduceAdd_single h' h, Ideal.ofBits_zero_f32, zero_add]
  exact Finset.sum_congr rfl fun k' _ => congrArg y (lift_ix1 h r k')

/-! ## A plain matrix product at an index -/

/-- The host's `dot_general` with the plain dimension numbers (contract axis 1 of the left with axis 0 of the right), read at `(p, q)`. -/
theorem dotGeneral_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

/-- A kernel's `tpu.matmul` with the plain dimension numbers into a zero splat, read at `(p, q)`: the same sum. -/
theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 p c) * B (ix2 c q) := by
  rw [matmul_zero_eq_dotGeneral]
  exact dotGeneral_plain_apply d hd prec A B p q

end Cert.LibKeepdims

end
-- ==== Proof.LibColumns.lean ====
/-
  Unit-width columns of a rank-2 array, read at an index.

  The slice of an `[a, b]` array that keeps every row and the single column `k` is an `[a, 1]` array whose entry in row
  `p` is the array's entry `(p, k)`. Conversely, `N` such columns joined along axis 1 form an `[a, N]` array whose entry
  `(p, q)` is row `p` of column `q`. Both hold for any element type.
-/
import Idealize.ShloMosaic.Lib.ValueIdx
import Idealize.ShloMosaic.Lib.Pipeline.Value

noncomputable section

namespace Cert.LibColumns

open Idealize.ShloMosaic Idealize.ShloMosaic.ValueIdx

variable {α : Type}

/-- Column `k` of an `[a, b]` array, sliced out with unit width, reads at `(p, u)` the array at `(p, k)`. -/
theorem slice_col_apply {a b : ℕ} (k : ℕ) (hk : k < b) (x : (⟨2, ![a, b]⟩ : Shape).Idx → α)
    (h : (⟨2, ![a, b]⟩ : Shape).Slices ![0, k] ⟨2, ![a, 1]⟩) (p : Fin a) (u : Fin 1) :
    extractStridedSlice ⟨2, ![a, 1]⟩ ![0, k] x h (ix2 p u) = x (ix2 p (⟨k, hk⟩ : Fin b)) := by
  refine extractStridedSlice_apply ![0, k] x h (ix2 p u) (ix2 p (⟨k, hk⟩ : Fin b)) fun ax => ?_
  match ax with
  | ⟨0, _⟩ => show p.val = 0 + p.val; omega
  | ⟨1, _⟩ =>
    show k = k + u.val
    have hu : u.val = 0 := by omega
    omega

/-- `N` unit-width columns joined along axis 1 read, at `(p, q)`, row `p` of column `q`. -/
theorem concat_cols_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (q : Fin N) :
    concatenate ⟨2, ![a, N]⟩ (1 : Fin 2) (List.ofFn fun n : Fin N => (⟨⟨2, ![a, 1]⟩, f n⟩ : (s : Shape) × (s.Idx → α))) h (ix2 p q)
      = f q (ix2 p (0 : Fin 1)) := by
  refine concatenate_ofFn_apply (t := ⟨2, ![a, N]⟩) (s₁ := ⟨2, ![a, 1]⟩) (1 : Fin 2) f h rfl 1 rfl (ix2 p q) q ?_
    (ix2 p (0 : Fin 1)) ?_ ?_
  · show q.val / 1 = q.val
    exact Nat.div_one _
  · show 0 = q.val % 1
    exact (Nat.mod_one _).symm
  · intro b hb
    match b with
    | ⟨0, _⟩ => rfl
    | ⟨1, _⟩ => exact absurd rfl hb

end Cert.LibColumns

end
-- ==== Proof.RowCovariance.lean ====
/-
  The covariance of one Gaussian from its raw scale row and raw quaternion row, over the extended reals.

  A raw scale `a` is activated as `1 · (σ(a) · A + B)` with `σ` the logistic function and `A`, `B` two fixed float
  words. A raw quaternion row `v = (v₀, v₁, v₂, v₃)` is normalised, `v_k / √(Σ_j v_j²)`, to `(r, x, y, z)`, which gives the
  rotation matrix `R` by the usual nine quadratic expressions. With `L = R · diag(s)` the covariance is `L Lᵀ`, whose
  entry `(i, k)` is `Σ_j (R_ij s_j)(R_kj s_j)`. Regrouping each summand as `(R_ij R_kj)(s_j s_j)` uses only that the
  product of extended reals is commutative and associative, so it holds at the infinities too and no finiteness of the
  inputs is needed. The six kept entries are the upper triangle `(0,0), (0,1), (0,2), (1,1), (1,2), (2,2)`.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.CovRow

open Idealize.ShloMosaic Idealize.ShloMosaic.ValueIdx

/-- The float word of `1.0`, as the programs spell it. -/
abbrev w1 : EReal := Ideal.ofBits .f32 0x3F800000#32
/-- The float word of `2.0`. -/
abbrev w2 : EReal := Ideal.ofBits .f32 0x40000000#32
/-- The float word both programs multiply the logistic by (the rounded `scale_max - scale_min`). -/
abbrev wA : EReal := Ideal.ofBits .f32 0x411FFF97#32
/-- The float word both programs add afterwards (the rounded `scale_min`). -/
abbrev wB : EReal := Ideal.ofBits .f32 0x38D1B717#32

/-- The logistic function spelt with a quotient, `1 / (1 + e^(-a))` with both ones the float word of `1.0`, is the logistic
    function: the word denotes the real number one. -/
theorem logistic_quotient (a : EReal) :
    Ideal.div (Ideal.ofBits .f32 0x3F800000#32) (Ideal.ofBits .f32 0x3F800000#32 + Ideal.exp (-a)) = Ideal.logistic a := by
  rw [Ideal.ofBits_one_f32]
  rfl

/-- The activated scale of a raw scale `a`. -/
def scaleOf (a : EReal) : EReal := w1 * (Ideal.logistic a * wA + wB)

/-- Component `k` of the normalised quaternion of the raw row `v`. -/
def unitq (v : Fin 4 → EReal) (k : Fin 4) : EReal := Ideal.div (v k) (Ideal.sqrt (∑ j : Fin 4, v j * v j))

/-- A sum of squares started from the float word of zero is the plain sum. -/
theorem unitq_from_zero (v : Fin 4 → EReal) (k : Fin 4) :
    Ideal.div (v k) (Ideal.sqrt (Ideal.ofBits .f32 0x00000000#32 + ∑ j : Fin 4, v j * v j)) = unitq v k := by
  rw [Ideal.ofBits_zero_f32, zero_add]
  rfl

/-- Entry `(i, j)` of the rotation matrix of the quaternion `(r, x, y, z)`. -/
def rot (r x y z : EReal) (i j : Fin 3) : EReal :=
  match i, j with
  | ⟨0, _⟩, ⟨0, _⟩ => w1 - w2 * (y * y + z * z)
  | ⟨0, _⟩, ⟨1, _⟩ => w2 * (x * y - r * z)
  | ⟨0, _⟩, ⟨2, _⟩ => w2 * (x * z + r * y)
  | ⟨1, _⟩, ⟨0, _⟩ => w2 * (x * y + r * z)
  | ⟨1, _⟩, ⟨1, _⟩ => w1 - w2 * (x * x + z * z)
  | ⟨1, _⟩, ⟨2, _⟩ => w2 * (y * z - r * x)
  | ⟨2, _⟩, ⟨0, _⟩ => w2 * (x * z - r * y)
  | ⟨2, _⟩, ⟨1, _⟩ => w2 * (y * z + r * x)
  | ⟨2, _⟩, ⟨2, _⟩ => w1 - w2 * (x * x + y * y)

/-- Entry `(i, k)` of `R · diag(s²) · Rᵀ`, the three products added left to right. -/
def quad (R : Fin 3 → Fin 3 → EReal) (s : Fin 3 → EReal) (i k : Fin 3) : EReal :=
  R i 0 * R k 0 * (s 0 * s 0) + R i 1 * R k 1 * (s 1 * s 1) + R i 2 * R k 2 * (s 2 * s 2)

/-- Entry `(i, k)` of `(R · diag(s)) (R · diag(s))ᵀ` is entry `(i, k)` of `R · diag(s²) · Rᵀ`: each summand is regrouped by
    commutativity and associativity of the product. -/
theorem gram_eq_quad (R : Fin 3 → Fin 3 → EReal) (s : Fin 3 → EReal) (i k : Fin 3) :
    ∑ j : Fin 3, (R i j * s j) * (R k j * s j) = quad R s i k := by
  rw [Fin.sum_univ_three]
  unfold quad
  rw [mul_mul_mul_comm (R i 0) (s 0), mul_mul_mul_comm (R i 1) (s 1), mul_mul_mul_comm (R i 2) (s 2)]

/-- The row index of the `q`-th kept entry of the symmetric matrix. -/
def rowOf (q : Fin 6) : Fin 3 :=
  match q with
  | ⟨0, _⟩ => 0 | ⟨1, _⟩ => 0 | ⟨2, _⟩ => 0 | ⟨3, _⟩ => 1 | ⟨4, _⟩ => 1 | ⟨5, _⟩ => 2

/-- The column index of the `q`-th kept entry of the symmetric matrix. -/
def colOf (q : Fin 6) : Fin 3 :=
  match q with
  | ⟨0, _⟩ => 0 | ⟨1, _⟩ => 1 | ⟨2, _⟩ => 2 | ⟨3, _⟩ => 1 | ⟨4, _⟩ => 2 | ⟨5, _⟩ => 2

/-- The rotation matrix of a raw quaternion row. -/
def rotOf (v : Fin 4 → EReal) : Fin 3 → Fin 3 → EReal := rot (unitq v 0) (unitq v 1) (unitq v 2) (unitq v 3)

/-- The `q`-th kept covariance entry of the Gaussian with raw scale row `s` and raw quaternion row `v`. -/
def covEntry (s : Fin 3 → EReal) (v : Fin 4 → EReal) (q : Fin 6) : EReal :=
  quad (rotOf v) (fun j => scaleOf (s j)) (rowOf q) (colOf q)

/-- The whole result: row `n`, column `q` holds the `q`-th kept covariance entry of Gaussian `n`. -/
def G (sc : (⟨2, ![4000000, 3]⟩ : Shape).Idx → EReal) (ro : (⟨2, ![4000000, 4]⟩ : Shape).Idx → EReal) :
    (⟨2, ![4000000, 6]⟩ : Shape).Idx → EReal :=
  fun i => covEntry (fun j => sc (ix2 (⟨(i 0).val, idx2_lt0 i⟩ : Fin 4000000) j))
    (fun k => ro (ix2 (⟨(i 0).val, idx2_lt0 i⟩ : Fin 4000000) k)) ⟨(i 1).val, idx2_lt1 i⟩

theorem G_ix2 (sc : (⟨2, ![4000000, 3]⟩ : Shape).Idx → EReal) (ro : (⟨2, ![4000000, 4]⟩ : Shape).Idx → EReal)
    (n : Fin 4000000) (q : Fin 6) :
    G sc ro (ix2 n q) = covEntry (fun j => sc (ix2 n j)) (fun k => ro (ix2 n k)) q := rfl

end Cert.CovRow

end
-- ==== Proof.KernelBlock.lean ====
/-
  One block of the kernel's result, entry by entry.

  At a grid point the body loads a block of 3200 raw scale rows and the matching block of 3200 raw quaternion rows, and
  stores a block of 3200 rows of six numbers. Every operation of the body acts within a row: the scales are activated
  entry by entry, each quaternion row is divided by the square root of its own sum of squares, the nine rotation entries
  and the six quadratic forms are pointwise expressions of unit-width columns sliced out of those two, and the six
  results are joined as columns. So entry `(p, q)` of the stored block is the `q`-th kept covariance entry of the
  Gaussian whose raw data are row `p` of the two loaded blocks.
-/
import proofs.«178538_j12360915878348_1_alg».proof.Proof.Gen.KernelIdeal.Value
import proofs.«178538_j12360915878348_1_alg».proof.Proof.LibKeepdims
import proofs.«178538_j12360915878348_1_alg».proof.Proof.LibColumns
import proofs.«178538_j12360915878348_1_alg».proof.Proof.RowCovariance
import Idealize.ShloMosaic.PureOps.Ideal.Laws
import Idealize.ShloMosaic.Lib.ValueIdx
import Idealize.ShloMosaic.Lib.Pipeline.Value

noncomputable section

namespace Cert.KernelIdeal.Block

open Idealize.ShloMosaic Idealize.ShloMosaic.ValueIdx Idealize.ShloMosaic.TcCoe
open Cert.KernelIdeal Cert.KernelIdeal.Gen Cert.KernelIdeal.Value
open Cert.CovRow Cert.LibKeepdims Cert.LibColumns

/-- The square root of a vector reads lane by lane. -/
theorem sqrt_at {s : Shape} {φ : FTy} (a : FVec Ideal s φ) (i : s.Idx) : sqrt a i = Ideal.sqrt (a i) := rfl

/-- The block's rows normalised: every entry of a row divided by the square root of the row's sum of squares. -/
abbrev qvec (P0 : FVec Ideal S3200x4 .f32) : FVec Ideal S3200x4 .f32 :=
  divf P0 (broadcastTo S3200x4 (sqrt (shapeCast S3200x1 (multiReduction .add [1] S3200 (mulf P0 P0) 0x00000000#32
    reduces_S3200x4_S3200 (.inl rfl) rfl) shapeCasts_S3200_S3200x1)) broadcasts_S3200x1_S3200x4)

/-- Entry `(p, k)` of the normalised block is component `k` of the unit quaternion of row `p`. -/
theorem qvec_apply (P0 : FVec Ideal S3200x4 .f32) (p : Fin 3200) (k : Fin 4) :
    qvec P0 (ix2 p k) = unitq (fun j => P0 (ix2 p j)) k := by
  unfold unitq
  refine (divf_apply P0 _ (ix2 p k)).trans ?_
  refine congrArg (Ideal.div (P0 (ix2 p k))) ?_
  refine (broadcastTo_a1_ab_apply _ broadcasts_S3200x1_S3200x4 p k).trans ?_
  refine (sqrt_at _ _).trans ?_
  refine congrArg Ideal.sqrt ?_
  refine (shapeCast_a_a1_apply _ shapeCasts_S3200_S3200x1 p 0).trans ?_
  refine (Ideal.multiReduction_add_single (mulf P0 P0) _ reduces_S3200x4_S3200 (.inl rfl) rfl (ix1 p)).trans ?_
  exact Finset.sum_congr rfl fun j _ => congrArg (mulf P0 P0) (lift_ix1 reduces_S3200x4_S3200 p j)

/-- The block's activated scales. -/
abbrev svec (P1 : FVec Ideal S3200x3 .f32) : FVec Ideal S3200x3 .f32 :=
  mulf (broadcast S3200x3 (Scalar.ofBits (F := Ideal) .f32 0x3F800000#32))
    (addf (mulf (logistic P1) (broadcast S3200x3 (Scalar.ofBits (F := Ideal) .f32 0x411FFF97#32)))
      (broadcast S3200x3 (Scalar.ofBits (F := Ideal) .f32 0x38D1B717#32)))

/-- Entry `(p, j)` of the activated scales is the activated scale of the raw entry. -/
theorem svec_apply (P1 : FVec Ideal S3200x3 .f32) (p : Fin 3200) (j : Fin 3) :
    svec P1 (ix2 p j) = scaleOf (P1 (ix2 p j)) := rfl

/-- Column `q` of the block the body stores, at row `p`: the `q`-th kept covariance entry of the Gaussian whose raw scales are
    row `p` of the scale block and whose raw quaternion is row `p` of the quaternion block. -/
theorem cat_value (P0 : FVec Ideal S3200x4 .f32) (P1 : FVec Ideal S3200x3 .f32) (p : Fin 3200) (q : Fin 6) :
    Cat2_0 (F := Ideal) P0 P1 q (ix2 p (0 : Fin 1)) = covEntry (fun j => P1 (ix2 p j)) (fun k => P0 (ix2 p k)) q := by
  have q0 : extractStridedSlice S3200x1 ![0, 0] (qvec P0) slices_S3200x4_o0_0_S3200x1 (ix2 p (0 : Fin 1))
      = unitq (fun k => P0 (ix2 p k)) 0 :=
    (slice_col_apply 0 (by decide) (qvec P0) slices_S3200x4_o0_0_S3200x1 p 0).trans (qvec_apply P0 p 0)
  have q1 : extractStridedSlice S3200x1 ![0, 1] (qvec P0) slices_S3200x4_o0_1_S3200x1 (ix2 p (0 : Fin 1))
      = unitq (fun k => P0 (ix2 p k)) 1 :=
    (slice_col_apply 1 (by decide) (qvec P0) slices_S3200x4_o0_1_S3200x1 p 0).trans (qvec_apply P0 p 1)
  have q2 : extractStridedSlice S3200x1 ![0, 2] (qvec P0) slices_S3200x4_o0_2_S3200x1 (ix2 p (0 : Fin 1))
      = unitq (fun k => P0 (ix2 p k)) 2 :=
    (slice_col_apply 2 (by decide) (qvec P0) slices_S3200x4_o0_2_S3200x1 p 0).trans (qvec_apply P0 p 2)
  have q3 : extractStridedSlice S3200x1 ![0, 3] (qvec P0) slices_S3200x4_o0_3_S3200x1 (ix2 p (0 : Fin 1))
      = unitq (fun k => P0 (ix2 p k)) 3 :=
    (slice_col_apply 3 (by decide) (qvec P0) slices_S3200x4_o0_3_S3200x1 p 0).trans (qvec_apply P0 p 3)
  have s0 : extractStridedSlice S3200x1 ![0, 0] (mulf (svec P1) (svec P1)) slices_S3200x3_o0_0_S3200x1 (ix2 p (0 : Fin 1))
      = scaleOf (P1 (ix2 p 0)) * scaleOf (P1 (ix2 p 0)) :=
    slice_col_apply 0 (by decide) (mulf (svec P1) (svec P1)) slices_S3200x3_o0_0_S3200x1 p 0
  have s1 : extractStridedSlice S3200x1 ![0, 1] (mulf (svec P1) (svec P1)) slices_S3200x3_o0_1_S3200x1 (ix2 p (0 : Fin 1))
      = scaleOf (P1 (ix2 p 1)) * scaleOf (P1 (ix2 p 1)) :=
    slice_col_apply 1 (by decide) (mulf (svec P1) (svec P1)) slices_S3200x3_o0_1_S3200x1 p 0
  have s2 : extractStridedSlice S3200x1 ![0, 2] (mulf (svec P1) (svec P1)) slices_S3200x3_o0_2_S3200x1 (ix2 p (0 : Fin 1))
      = scaleOf (P1 (ix2 p 2)) * scaleOf (P1 (ix2 p 2)) :=
    slice_col_apply 2 (by decide) (mulf (svec P1) (svec P1)) slices_S3200x3_o0_2_S3200x1 p 0
  match q with
  | ⟨0, _⟩ =>
    simp only [Cat2_0, k0_pay22, mulf_apply, addf_apply, subf_apply, broadcast_apply]
    rw [q0, q1, q2, q3, s0, s1, s2]
    rfl
  | ⟨1, _⟩ =>
    simp only [Cat2_0, k0_pay22, mulf_apply, addf_apply, subf_apply, broadcast_apply]
    rw [q0, q1, q2, q3, s0, s1, s2]
    rfl
  | ⟨2, _⟩ =>
    simp only [Cat2_0, k0_pay22, mulf_apply, addf_apply, subf_apply, broadcast_apply]
    rw [q0, q1, q2, q3, s0, s1, s2]
    rfl
  | ⟨3, _⟩ =>
    simp only [Cat2_0, k0_pay22, mulf_apply, addf_apply, subf_apply, broadcast_apply]
    rw [q0, q1, q2, q3, s0, s1, s2]
    rfl
  | ⟨4, _⟩ =>
    simp only [Cat2_0, k0_pay22, mulf_apply, addf_apply, subf_apply, broadcast_apply]
    rw [q0, q1, q2, q3, s0, s1, s2]
    rfl
  | ⟨5, _⟩ =>
    simp only [Cat2_0, k0_pay22, mulf_apply, addf_apply, subf_apply, broadcast_apply]
    rw [q0, q1, q2, q3, s0, s1, s2]
    rfl

theorem hz : (![0, 0] : Fin 2 → Nat) = fun _ => 0 := funext fun a => by fin_cases a <;> rfl

/-- What the body leaves in the output block, entry `(p, q)`, from the two input blocks. -/
theorem block_value (x0 : Vec Ideal S3200x3 .f32) (x1 : Vec Ideal S3200x4 .f32) (p : Fin 3200) (q : Fin 6) :
    out0_2 x0 x1 (ix2 p q) = covEntry (fun j => x0 (ix2 p j)) (fun k => x1 (ix2 p k)) q := by
  unfold out0_2
  refine (canon2_eq (F := Ideal) (View.ld x1 r0_1) (View.ld x0 r0_0) (ix2 p q)).trans ?_
  rw [View.ld_unit_zero (S := S3200x4) hz, View.ld_unit_zero (S := S3200x3) hz]
  have e : ix2_0 (ix2 p q) = ix2 p (0 : Fin 1) := funext fun a => match a with | ⟨0, _⟩ => rfl | ⟨1, _⟩ => rfl
  show Cat2_0 (F := Ideal) x1 x0 q (ix2_0 (ix2 p q)) = _
  rw [e]
  exact cat_value x1 x0 p q

end Cert.KernelIdeal.Block

end
-- ==== Proof.KernelArray.lean ====
/-
  From blocks to the array: the kernel's result array after the run.

  The grid has 1250 points; at point `t` each of the three windows is on rows `3200 t … 3200 t + 3199` of its array
  and on all of its columns. So what point `t` writes back is block `t` of the covariance array of the two argument arrays
  (the block's entry `(p, q)` is computed from row `p` of the two input blocks, which are rows `3200 t + p` of the
  arguments), the 1250 blocks cover every row of the result, and after the run the result array is that covariance array.
-/
import proofs.«178538_j12360915878348_1_alg».proof.Proof.Gen.KernelIdeal.Value
import proofs.«178538_j12360915878348_1_alg».proof.Proof.KernelBlock
import proofs.«178538_j12360915878348_1_alg».proof.Proof.RowCovariance
import Idealize.ShloMosaic.Lib.ValueIdx
import Idealize.ShloMosaic.Lib.Pipeline.Value

noncomputable section

namespace Cert.KernelIdeal.Whole

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Value Cert.KernelIdeal.Block
open Cert.CovRow

variable (m : (ℓ : Loc nD τ sig) → Buf (Elt Ideal) ℓ) (ρ : Dev nD → PrngReg)

/-- The three index maps, decided over the 1250 grid points: at point `t` every window is on block `t` of the rows and
    on the one block of the columns. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

theorem point_lt (t : Fin cfg0.N) : t.val < 1250 := lt_of_lt_of_eq t.isLt N_0

/-- Row `p` of the block of point `t` is row `3200 t + p` of the array. -/
def rowAt (t : Fin cfg0.N) (p : Fin 3200) : Fin 4000000 :=
  ⟨t.val * 3200 + p.val, by have := point_lt t; have := p.isLt; omega⟩

/-- The scale block of point `t`, read at `(p, j)`, is the scale array at row `3200 t + p`. -/
theorem scale_block (c : Dev nD) (t : Fin cfg0.N) (p : Fin 3200) (j : Fin 3) :
    (iblk m c 0 t : Vec Ideal S3200x3 .f32) (ix2 p j) = (V m c main_arg0 : S4000000x3.Idx → EReal) (ix2 (rowAt t p) j) := by
  obtain ⟨e00, e01, -, -, -, -⟩ := idx_facts t
  show (V m c main_arg0 : S4000000x3.Idx → EReal) (((cfg0.win 0).blk t).view.emb (ix2 p j)) = _
  refine congrArg (V m c main_arg0 : S4000000x3.Idx → EReal) ?_
  funext a
  apply Fin.ext
  match a with
  | ⟨0, _⟩ => show win0_0.index t (0 : Fin 2) * 3200 + 1 * p.val = t.val * 3200 + p.val; rw [e00]; omega
  | ⟨1, _⟩ => show win0_0.index t (1 : Fin 2) * 3 + 1 * j.val = j.val; rw [e01]; omega

/-- The quaternion block of point `t`, read at `(p, k)`, is the quaternion array at row `3200 t + p`. -/
theorem quat_block (c : Dev nD) (t : Fin cfg0.N) (p : Fin 3200) (k : Fin 4) :
    (iblk m c 1 t : Vec Ideal S3200x4 .f32) (ix2 p k) = (V m c main_arg1 : S4000000x4.Idx → EReal) (ix2 (rowAt t p) k) := by
  obtain ⟨-, -, e10, e11, -, -⟩ := idx_facts t
  show (V m c main_arg1 : S4000000x4.Idx → EReal) (((cfg0.win 1).blk t).view.emb (ix2 p k)) = _
  refine congrArg (V m c main_arg1 : S4000000x4.Idx → EReal) ?_
  funext a
  apply Fin.ext
  match a with
  | ⟨0, _⟩ => show win0_1.index t (0 : Fin 2) * 3200 + 1 * p.val = t.val * 3200 + p.val; rw [e10]; omega
  | ⟨1, _⟩ => show win0_1.index t (1 : Fin 2) * 4 + 1 * k.val = k.val; rw [e11]; omega

/-- Entry `(p, q)` of the result block of point `t` sits at row `3200 t + p`, column `q` of the result array. -/
theorem result_block (t : Fin cfg0.N) (p : Fin 3200) (q : Fin 6) :
    (((cfg0.win 2).blk t).view.emb (ix2 p q) : S4000000x6.Idx) = ix2 (rowAt t p) q := by
  obtain ⟨-, -, -, -, e20, e21⟩ := idx_facts t
  funext a
  apply Fin.ext
  match a with
  | ⟨0, _⟩ => show win0_2.index t (0 : Fin 2) * 3200 + 1 * p.val = t.val * 3200 + p.val; rw [e20]; omega
  | ⟨1, _⟩ => show win0_2.index t (1 : Fin 2) * 6 + 1 * q.val = q.val; rw [e21]; omega

/-- What point `t` writes back is block `t` of the covariance array of the two argument arrays. -/
theorem flushed_eq (c : Dev nD) (t : Fin cfg0.N) :
    (dats m 0 c).flushed 2 t
      = ((cfg0.win 2).blk t).view.read (Elt Ideal) (G (V m c main_arg0) (V m c main_arg1)) := by
  rw [flushed2]
  funext y
  obtain ⟨p, q, rfl⟩ : ∃ (p : Fin 3200) (q : Fin 6), y = ix2 p q := ⟨y 0, y 1, eq_ix2 y⟩
  show out0_2 (iblk m c 0 t) (iblk m c 1 t) (ix2 p q)
    = G (V m c main_arg0) (V m c main_arg1) (((cfg0.win 2).blk t).view.emb (ix2 p q))
  rw [result_block t p q, G_ix2]
  refine (block_value (iblk m c 0 t) (iblk m c 1 t) p q).trans ?_
  exact congrArg₂ (fun f g => covEntry f g q) (funext fun j => scale_block m c t p j) (funext fun k => quat_block m c t p k)

/-- An index of the result array is in point `t`'s block iff each coordinate is in the block's range on its axis. -/
theorem mem_blk (t : Fin cfg0.N) (i : S4000000x6.Idx) :
    i ∈ ((cfg0.win 2).blk t).view.set ↔ ∀ a : Fin 2, win0_2.index t a * S3200x6.size a ≤ (i a).val
      ∧ (i a).val < win0_2.index t a * S3200x6.size a + S3200x6.size a := by
  show i ∈ ((View.whole main_v0).slice (win0_2.rect t)).set ↔ _
  rw [View.set_slice_whole, Rect.mem_set_unit]
  exact Iff.rfl

/-- Every index of the result array lies in the block of the point its row falls in. -/
theorem cover (i : S4000000x6.Idx) :
    ∃ t : Fin cfg0.N, (cfg0.win 2).flush t = true ∧ i ∈ ((cfg0.win 2).blk t).view.set := by
  have hi0 : (i 0).val < 4000000 := (i 0).isLt
  have hi1 : (i 1).val < 6 := (i 1).isLt
  have hN : cfg0.N = 1250 := N_0
  have hlt : (i 0).val / 3200 < cfg0.N := by rw [hN]; omega
  obtain ⟨-, -, -, -, e20, e21⟩ := idx_facts ⟨(i 0).val / 3200, hlt⟩
  refine ⟨⟨(i 0).val / 3200, hlt⟩, flush0_2 _, ?_⟩
  rw [mem_blk]
  intro a
  match a with
  | ⟨0, _⟩ =>
    show win0_2.index ⟨(i 0).val / 3200, hlt⟩ (0 : Fin 2) * 3200 ≤ (i 0).val
      ∧ (i 0).val < win0_2.index ⟨(i 0).val / 3200, hlt⟩ (0 : Fin 2) * 3200 + 3200
    rw [e20]
    show (i 0).val / 3200 * 3200 ≤ (i 0).val ∧ (i 0).val < (i 0).val / 3200 * 3200 + 3200
    omega
  | ⟨1, _⟩ =>
    show win0_2.index ⟨(i 0).val / 3200, hlt⟩ (1 : Fin 2) * 6 ≤ (i 1).val
      ∧ (i 1).val < win0_2.index ⟨(i 0).val / 3200, hlt⟩ (1 : Fin 2) * 6 + 6
    rw [e21]
    omega

/-- So after the run the result array is the covariance array of the argument arrays. -/
theorem final (c : Dev nD) :
    (dats m 0 c).arrAt 2 cfg0.N = G (V m c main_arg0) (V m c main_arg1) :=
  (dats m 0 c).arrAt_eq_of_cover 2 (G (V m c main_arg0) (V m c main_arg1)) (fun t _ => flushed_eq m c t) cover

/-- The kernel's run, read: the result array at the covariance array of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.ReferenceRow.lean ====
/-
  The reference's result, entry by entry.

  The reference activates the scale array entry by entry (the logistic function spelt `1 / (1 + e^(-a))`), divides the
  quaternion array by its row norms (a row sum of squares from the float word of zero, kept as a column, rooted and laid
  back over the columns), flattens the four components, forms the nine rotation entries as vectors over the rows, joins
  them as nine columns and reshapes to 3 × 3, multiplies each matrix column `j` by the row's scale `j`, takes the batched
  product of the result with its own transpose, and joins the six upper-triangle entries as columns. Read at `(n, q)`
  every step stays inside row `n`, and the product's entry `(i, k)` is `Σ_j (R_ij s_j)(R_kj s_j)`, which is the
  quadratic form `Σ_j (R_ij R_kj)(s_j s_j)` by commutativity and associativity of the product alone.
-/
import proofs.«178538_j12360915878348_1_alg».proof.Proof.Gen.ReferenceIdeal.Read
import proofs.«178538_j12360915878348_1_alg».proof.Proof.LibColumns
import proofs.«178538_j12360915878348_1_alg».proof.Proof.RowCovariance
import Idealize.ShloMosaic.PureOps.Ideal.Laws
import Idealize.ShloMosaic.Lib.ValueIdx
import Idealize.ShloMosaic.Lib.Pipeline.Value

noncomputable section

open scoped BigOperators

namespace Cert.ReferenceIdeal.Row

open Idealize.ShloMosaic Idealize.ShloMosaic.ValueIdx Idealize.ShloMosaic.TcCoe Idealize.ShloMosaic.StableHlo
open Cert.ReferenceIdeal Cert.ReferenceIdeal.Gen Cert.ReferenceIdeal.Read
open Cert.CovRow Cert.LibColumns

variable (x0 : (⟨S4000000x3, .f32⟩ : BufTy).Contents (Elt Ideal)) (x1 : (⟨S4000000x4, .f32⟩ : BufTy).Contents (Elt Ideal))

/-- Raw quaternion row `n`. -/
abbrev qrow (n : Fin 4000000) : Fin 4 → EReal := fun k => x1 (ix2 n k)
/-- Raw scale row `n`. -/
abbrev srow (n : Fin 4000000) : Fin 3 → EReal := fun j => x0 (ix2 n j)

/-! ## The normalised quaternion -/

/-- The reference's quotient of the quaternion array by its row norms, at `(n, k)`: the row sum of squares starts from the
    float word of zero, is kept as a column, rooted, laid back over the four columns, and divides. -/
theorem unit_stage (n : Fin 4000000) (k : Fin 4) : val_main_v14 (F := Ideal) x1 (ix2 n k) = unitq (qrow x1 n) k := by
  have e : ∀ k' : Fin 4, idx_main_call0_v1 (idx_main_call0_v2 (idx_main_v13 (ix2 n k))) k' = ix2 n k' := fun k' =>
    funext fun a => Fin.ext (by match a with | ⟨0, _⟩ => rfl | ⟨1, _⟩ => rfl)
  rw [val_main_v14_apply, val_main_v13_apply, val_main_v12_apply, val_main_call0_v2_apply, val_main_call0_v1_apply]
  simp only [e, val_main_call0_v0_apply, val_main_call0_cst_apply]
  exact unitq_from_zero (qrow x1 n) k

/-- Component 0 of the normalised quaternion of row `n`, as the reference slices and flattens it. -/
theorem comp_stage0 (n : Fin 4000000) : val_main_v16 (F := Ideal) x1 (ix1 n) = unitq (qrow x1 n) 0 := by
  have e : idx_main_v15 (idx_main_v16 (ix1 n)) = ix2 n (0 : Fin 4) :=
    funext fun a => Fin.ext (by match a with | ⟨0, _⟩ => exact Nat.div_one _ | ⟨1, _⟩ => rfl)
  rw [val_main_v16_apply, val_main_v15_apply, e]
  exact unit_stage x1 n 0

/-- Component 1 of the normalised quaternion of row `n`, as the reference slices and flattens it. -/
theorem comp_stage1 (n : Fin 4000000) : val_main_v18 (F := Ideal) x1 (ix1 n) = unitq (qrow x1 n) 1 := by
  have e : idx_main_v17 (idx_main_v18 (ix1 n)) = ix2 n (1 : Fin 4) :=
    funext fun a => Fin.ext (by match a with | ⟨0, _⟩ => exact Nat.div_one _ | ⟨1, _⟩ => rfl)
  rw [val_main_v18_apply, val_main_v17_apply, e]
  exact unit_stage x1 n 1

/-- Component 2 of the normalised quaternion of row `n`, as the reference slices and flattens it. -/
theorem comp_stage2 (n : Fin 4000000) : val_main_v20 (F := Ideal) x1 (ix1 n) = unitq (qrow x1 n) 2 := by
  have e : idx_main_v19 (idx_main_v20 (ix1 n)) = ix2 n (2 : Fin 4) :=
    funext fun a => Fin.ext (by match a with | ⟨0, _⟩ => exact Nat.div_one _ | ⟨1, _⟩ => rfl)
  rw [val_main_v20_apply, val_main_v19_apply, e]
  exact unit_stage x1 n 2

/-- Component 3 of the normalised quaternion of row `n`, as the reference slices and flattens it. -/
theorem comp_stage3 (n : Fin 4000000) : val_main_v22 (F := Ideal) x1 (ix1 n) = unitq (qrow x1 n) 3 := by
  have e : idx_main_v21 (idx_main_v22 (ix1 n)) = ix2 n (3 : Fin 4) :=
    funext fun a => Fin.ext (by match a with | ⟨0, _⟩ => exact Nat.div_one _ | ⟨1, _⟩ => rfl)
  rw [val_main_v22_apply, val_main_v21_apply, e]
  exact unit_stage x1 n 3

/-! ## The nine rotation entries -/

theorem rot_entry_00 (n : Fin 4000000) : val_main_v29 (F := Ideal) x1 (ix1 n) = rotOf (qrow x1 n) 0 0 := by
  have hy := comp_stage2 x1 n
  have hz := comp_stage3 x1 n
  rw [val_main_v29_apply, val_main_v28_apply, val_main_cst_5_apply, val_main_v27_apply, val_main_v26_apply, val_main_cst_4_apply, val_main_v25_apply, val_main_v23_apply, val_main_v24_apply, hy, hz]
  rfl

theorem rot_entry_01 (n : Fin 4000000) : val_main_v34 (F := Ideal) x1 (ix1 n) = rotOf (qrow x1 n) 0 1 := by
  have hr := comp_stage0 x1 n
  have hx := comp_stage1 x1 n
  have hy := comp_stage2 x1 n
  have hz := comp_stage3 x1 n
  rw [val_main_v34_apply, val_main_v33_apply, val_main_cst_6_apply, val_main_v32_apply, val_main_v30_apply, val_main_v31_apply, hr, hx, hy, hz]
  rfl

theorem rot_entry_02 (n : Fin 4000000) : val_main_v39 (F := Ideal) x1 (ix1 n) = rotOf (qrow x1 n) 0 2 := by
  have hr := comp_stage0 x1 n
  have hx := comp_stage1 x1 n
  have hy := comp_stage2 x1 n
  have hz := comp_stage3 x1 n
  rw [val_main_v39_apply, val_main_v38_apply, val_main_cst_7_apply, val_main_v37_apply, val_main_v35_apply, val_main_v36_apply, hr, hx, hy, hz]
  rfl

theorem rot_entry_10 (n : Fin 4000000) : val_main_v44 (F := Ideal) x1 (ix1 n) = rotOf (qrow x1 n) 1 0 := by
  have hr := comp_stage0 x1 n
  have hx := comp_stage1 x1 n
  have hy := comp_stage2 x1 n
  have hz := comp_stage3 x1 n
  rw [val_main_v44_apply, val_main_v43_apply, val_main_cst_8_apply, val_main_v42_apply, val_main_v40_apply, val_main_v41_apply, hr, hx, hy, hz]
  rfl

theorem rot_entry_11 (n : Fin 4000000) : val_main_v51 (F := Ideal) x1 (ix1 n) = rotOf (qrow x1 n) 1 1 := by
  have hx := comp_stage1 x1 n
  have hz := comp_stage3 x1 n
  rw [val_main_v51_apply, val_main_v50_apply, val_main_cst_10_apply, val_main_v49_apply, val_main_v48_apply, val_main_cst_9_apply, val_main_v47_apply, val_main_v45_apply, val_main_v46_apply, hx, hz]
  rfl

theorem rot_entry_12 (n : Fin 4000000) : val_main_v56 (F := Ideal) x1 (ix1 n) = rotOf (qrow x1 n) 1 2 := by
  have hr := comp_stage0 x1 n
  have hx := comp_stage1 x1 n
  have hy := comp_stage2 x1 n
  have hz := comp_stage3 x1 n
  rw [val_main_v56_apply, val_main_v55_apply, val_main_cst_11_apply, val_main_v54_apply, val_main_v52_apply, val_main_v53_apply, hr, hx, hy, hz]
  rfl

theorem rot_entry_20 (n : Fin 4000000) : val_main_v61 (F := Ideal) x1 (ix1 n) = rotOf (qrow x1 n) 2 0 := by
  have hr := comp_stage0 x1 n
  have hx := comp_stage1 x1 n
  have hy := comp_stage2 x1 n
  have hz := comp_stage3 x1 n
  rw [val_main_v61_apply, val_main_v60_apply, val_main_cst_12_apply, val_main_v59_apply, val_main_v57_apply, val_main_v58_apply, hr, hx, hy, hz]
  rfl

theorem rot_entry_21 (n : Fin 4000000) : val_main_v66 (F := Ideal) x1 (ix1 n) = rotOf (qrow x1 n) 2 1 := by
  have hr := comp_stage0 x1 n
  have hx := comp_stage1 x1 n
  have hy := comp_stage2 x1 n
  have hz := comp_stage3 x1 n
  rw [val_main_v66_apply, val_main_v65_apply, val_main_cst_13_apply, val_main_v64_apply, val_main_v62_apply, val_main_v63_apply, hr, hx, hy, hz]
  rfl

theorem rot_entry_22 (n : Fin 4000000) : val_main_v73 (F := Ideal) x1 (ix1 n) = rotOf (qrow x1 n) 2 2 := by
  have hx := comp_stage1 x1 n
  have hy := comp_stage2 x1 n
  rw [val_main_v73_apply, val_main_v72_apply, val_main_cst_15_apply, val_main_v71_apply, val_main_v70_apply, val_main_cst_14_apply, val_main_v69_apply, val_main_v67_apply, val_main_v68_apply, hx, hy]
  rfl

theorem rot_col_00 (n : Fin 4000000) : val_main_v74 (F := Ideal) x1 (ix2 n (0 : Fin 1)) = rotOf (qrow x1 n) 0 0 := by
  have e : idx_main_v74 (ix2 n (0 : Fin 1)) = ix1 n := funext fun a => Fin.ext (by match a with | ⟨0, _⟩ => rfl)
  rw [val_main_v74_apply, e]
  exact rot_entry_00 x1 n

theorem rot_col_01 (n : Fin 4000000) : val_main_v75 (F := Ideal) x1 (ix2 n (0 : Fin 1)) = rotOf (qrow x1 n) 0 1 := by
  have e : idx_main_v75 (ix2 n (0 : Fin 1)) = ix1 n := funext fun a => Fin.ext (by match a with | ⟨0, _⟩ => rfl)
  rw [val_main_v75_apply, e]
  exact rot_entry_01 x1 n

theorem rot_col_02 (n : Fin 4000000) : val_main_v76 (F := Ideal) x1 (ix2 n (0 : Fin 1)) = rotOf (qrow x1 n) 0 2 := by
  have e : idx_main_v76 (ix2 n (0 : Fin 1)) = ix1 n := funext fun a => Fin.ext (by match a with | ⟨0, _⟩ => rfl)
  rw [val_main_v76_apply, e]
  exact rot_entry_02 x1 n

theorem rot_col_10 (n : Fin 4000000) : val_main_v77 (F := Ideal) x1 (ix2 n (0 : Fin 1)) = rotOf (qrow x1 n) 1 0 := by
  have e : idx_main_v77 (ix2 n (0 : Fin 1)) = ix1 n := funext fun a => Fin.ext (by match a with | ⟨0, _⟩ => rfl)
  rw [val_main_v77_apply, e]
  exact rot_entry_10 x1 n

theorem rot_col_11 (n : Fin 4000000) : val_main_v78 (F := Ideal) x1 (ix2 n (0 : Fin 1)) = rotOf (qrow x1 n) 1 1 := by
  have e : idx_main_v78 (ix2 n (0 : Fin 1)) = ix1 n := funext fun a => Fin.ext (by match a with | ⟨0, _⟩ => rfl)
  rw [val_main_v78_apply, e]
  exact rot_entry_11 x1 n

theorem rot_col_12 (n : Fin 4000000) : val_main_v79 (F := Ideal) x1 (ix2 n (0 : Fin 1)) = rotOf (qrow x1 n) 1 2 := by
  have e : idx_main_v79 (ix2 n (0 : Fin 1)) = ix1 n := funext fun a => Fin.ext (by match a with | ⟨0, _⟩ => rfl)
  rw [val_main_v79_apply, e]
  exact rot_entry_12 x1 n

theorem rot_col_20 (n : Fin 4000000) : val_main_v80 (F := Ideal) x1 (ix2 n (0 : Fin 1)) = rotOf (qrow x1 n) 2 0 := by
  have e : idx_main_v80 (ix2 n (0 : Fin 1)) = ix1 n := funext fun a => Fin.ext (by match a with | ⟨0, _⟩ => rfl)
  rw [val_main_v80_apply, e]
  exact rot_entry_20 x1 n

theorem rot_col_21 (n : Fin 4000000) : val_main_v81 (F := Ideal) x1 (ix2 n (0 : Fin 1)) = rotOf (qrow x1 n) 2 1 := by
  have e : idx_main_v81 (ix2 n (0 : Fin 1)) = ix1 n := funext fun a => Fin.ext (by match a with | ⟨0, _⟩ => rfl)
  rw [val_main_v81_apply, e]
  exact rot_entry_21 x1 n

theorem rot_col_22 (n : Fin 4000000) : val_main_v82 (F := Ideal) x1 (ix2 n (0 : Fin 1)) = rotOf (qrow x1 n) 2 2 := by
  have e : idx_main_v82 (ix2 n (0 : Fin 1)) = ix1 n := funext fun a => Fin.ext (by match a with | ⟨0, _⟩ => rfl)
  rw [val_main_v82_apply, e]
  exact rot_entry_22 x1 n

/-- The nine columns the reference joins into the flattened rotation matrices, in order. -/
def rotCols (c : Fin 9) : (⟨S4000000x1, .f32⟩ : BufTy).Contents (Elt Ideal) :=
  match c with
  | ⟨0, _⟩ => val_main_v74 (F := Ideal) x1
  | ⟨1, _⟩ => val_main_v75 (F := Ideal) x1
  | ⟨2, _⟩ => val_main_v76 (F := Ideal) x1
  | ⟨3, _⟩ => val_main_v77 (F := Ideal) x1
  | ⟨4, _⟩ => val_main_v78 (F := Ideal) x1
  | ⟨5, _⟩ => val_main_v79 (F := Ideal) x1
  | ⟨6, _⟩ => val_main_v80 (F := Ideal) x1
  | ⟨7, _⟩ => val_main_v81 (F := Ideal) x1
  | ⟨8, _⟩ => val_main_v82 (F := Ideal) x1

/-- Column `3 i + j` holds entry `(i, j)` of the rotation matrix of each row. -/
theorem rotCols_apply (n : Fin 4000000) (i j : Fin 3) (h : i.val * 3 + j.val < 9) :
    rotCols x1 ⟨i.val * 3 + j.val, h⟩ (ix2 n (0 : Fin 1)) = rotOf (qrow x1 n) i j := by
  match i, j with
  | ⟨0, _⟩, ⟨0, _⟩ => exact rot_col_00 x1 n
  | ⟨0, _⟩, ⟨1, _⟩ => exact rot_col_01 x1 n
  | ⟨0, _⟩, ⟨2, _⟩ => exact rot_col_02 x1 n
  | ⟨1, _⟩, ⟨0, _⟩ => exact rot_col_10 x1 n
  | ⟨1, _⟩, ⟨1, _⟩ => exact rot_col_11 x1 n
  | ⟨1, _⟩, ⟨2, _⟩ => exact rot_col_12 x1 n
  | ⟨2, _⟩, ⟨0, _⟩ => exact rot_col_20 x1 n
  | ⟨2, _⟩, ⟨1, _⟩ => exact rot_col_21 x1 n
  | ⟨2, _⟩, ⟨2, _⟩ => exact rot_col_22 x1 n

/-- The flattened rows reshaped to 3 × 3: entry `(n, i, j)` is entry `(i, j)` of the rotation matrix of row `n`. -/
theorem rot_stage (n : Fin 4000000) (i j : Fin 3) : val_main_v84 (F := Ideal) x1 (ix3 n i j) = rotOf (qrow x1 n) i j := by
  have hi := i.isLt
  have hj := j.isLt
  have hc : i.val * 3 + j.val < 9 := by omega
  have e : idx_main_v84 (ix3 n i j) = ix2 n (⟨i.val * 3 + j.val, hc⟩ : Fin 9) := funext fun a => Fin.ext (by
    match a with
    | ⟨0, _⟩ => show ((n.val * 3 + i.val) * 3 + j.val) / 9 = n.val; omega
    | ⟨1, _⟩ => show ((n.val * 3 + i.val) * 3 + j.val) % 9 = i.val * 3 + j.val; omega)
  rw [val_main_v84_apply, e]
  unfold val_main_v83
  show concatenate S4000000x9 1 (List.ofFn fun c : Fin 9 => (⟨S4000000x1, rotCols x1 c⟩ : (s : Shape) × (s.Idx → _))) _
    (ix2 n (⟨i.val * 3 + j.val, hc⟩ : Fin 9)) = _
  refine (concat_cols_apply (rotCols x1) _ n ⟨i.val * 3 + j.val, hc⟩).trans ?_
  exact rotCols_apply x1 n i j hc

/-! ## The activated scales -/

/-- The reference's activated scale at `(n, j)`: the logistic function spelt as `1 / (1 + e^(-a))`. -/
theorem scale_stage (n : Fin 4000000) (j : Fin 3) : val_main_v11 (F := Ideal) x0 (ix2 n j) = scaleOf (srow x0 n j) := by
  rw [val_main_v11_apply, val_main_v10_apply, val_main_cst_3_apply, val_main_v9_apply, val_main_v7_apply, val_main_v5_apply, val_main_v4_apply, val_main_cst_0_apply, val_main_v3_apply, val_main_v2_apply, val_main_cst_apply, val_main_v1_apply, val_main_v0_apply, val_main_v6_apply, val_main_cst_1_apply, val_main_v8_apply, val_main_cst_2_apply]
  unfold scaleOf
  rw [← logistic_quotient (x0 (ix2 n j))]
  rfl

/-- The scales laid over the rows of each 3 × 3 matrix: entry `(n, i, j)` is the activated scale `j` of row `n`. -/
theorem scale_stage3 (n : Fin 4000000) (i j : Fin 3) : val_main_v86 (F := Ideal) x0 (ix3 n i j) = scaleOf (srow x0 n j) := by
  have e : idx_main_v85 (idx_main_v86 (ix3 n i j)) = ix2 n j :=
    funext fun a => Fin.ext (by match a with | ⟨0, _⟩ => rfl | ⟨1, _⟩ => rfl)
  rw [val_main_v86_apply, val_main_v85_apply, e]
  exact scale_stage x0 n j

/-! ## The product with its own transpose -/

/-- Entry `(n, i, k)` of the batched product of `L = R · diag(s)` with its transpose. -/
theorem gram_stage (n : Fin 4000000) (i k : Fin 3) :
    val_main_v88 (F := Ideal) x0 x1 (ix3 n i k) = quad (rotOf (qrow x1 n)) (fun j => scaleOf (srow x0 n j)) i k := by
  have el : ∀ j : Fin 3, lidx_main_v88 (ix3 n i k) j = ix3 n i j := fun j =>
    funext fun a => by match a with | ⟨0, _⟩ => rfl | ⟨1, _⟩ => rfl | ⟨2, _⟩ => rfl
  have er : ∀ j : Fin 3, ridx_main_v88 (ix3 n i k) j = ix3 n k j := fun j =>
    funext fun a => by match a with | ⟨0, _⟩ => rfl | ⟨1, _⟩ => rfl | ⟨2, _⟩ => rfl
  rw [val_main_v88_apply]
  refine (Finset.sum_congr rfl fun j _ => ?_).trans (gram_eq_quad (rotOf (qrow x1 n)) (fun j => scaleOf (srow x0 n j)) i k)
  rw [el j, er j, val_main_v87_apply x0 x1 (ix3 n i j), val_main_v87_apply x0 x1 (ix3 n k j), rot_stage x1 n i j, rot_stage x1 n k j,
    scale_stage3 x0 n i j, scale_stage3 x0 n k j]
  rfl

/-! ## The six kept entries, joined -/

/-- The six columns the reference joins into its result, in order. -/
def outCols (q : Fin 6) : (⟨S4000000x1, .f32⟩ : BufTy).Contents (Elt Ideal) :=
  match q with
  | ⟨0, _⟩ => val_main_v101 (F := Ideal) x0 x1
  | ⟨1, _⟩ => val_main_v102 (F := Ideal) x0 x1
  | ⟨2, _⟩ => val_main_v103 (F := Ideal) x0 x1
  | ⟨3, _⟩ => val_main_v104 (F := Ideal) x0 x1
  | ⟨4, _⟩ => val_main_v105 (F := Ideal) x0 x1
  | ⟨5, _⟩ => val_main_v106 (F := Ideal) x0 x1

/-- Column `q` of the result holds, in row `n`, the `q`-th kept covariance entry of Gaussian `n`. -/
theorem outCols_apply (n : Fin 4000000) (q : Fin 6) :
    outCols x0 x1 q (ix2 n (0 : Fin 1)) = covEntry (srow x0 n) (qrow x1 n) q := by
  match q with
  | ⟨0, _⟩ =>
    have e : idx_main_v89 (idx_main_v90 (idx_main_v101 (ix2 n (0 : Fin 1)))) = ix3 n (0 : Fin 3) (0 : Fin 3) :=
      funext fun a => Fin.ext (by match a with | ⟨0, _⟩ => exact Nat.div_one _ | ⟨1, _⟩ => rfl | ⟨2, _⟩ => rfl)
    show val_main_v101 (F := Ideal) x0 x1 (ix2 n (0 : Fin 1)) = _
    rw [val_main_v101_apply, val_main_v90_apply, val_main_v89_apply, e]
    exact gram_stage x0 x1 n 0 0
  | ⟨1, _⟩ =>
    have e : idx_main_v91 (idx_main_v92 (idx_main_v102 (ix2 n (0 : Fin 1)))) = ix3 n (0 : Fin 3) (1 : Fin 3) :=
      funext fun a => Fin.ext (by match a with | ⟨0, _⟩ => exact Nat.div_one _ | ⟨1, _⟩ => rfl | ⟨2, _⟩ => rfl)
    show val_main_v102 (F := Ideal) x0 x1 (ix2 n (0 : Fin 1)) = _
    rw [val_main_v102_apply, val_main_v92_apply, val_main_v91_apply, e]
    exact gram_stage x0 x1 n 0 1
  | ⟨2, _⟩ =>
    have e : idx_main_v93 (idx_main_v94 (idx_main_v103 (ix2 n (0 : Fin 1)))) = ix3 n (0 : Fin 3) (2 : Fin 3) :=
      funext fun a => Fin.ext (by match a with | ⟨0, _⟩ => exact Nat.div_one _ | ⟨1, _⟩ => rfl | ⟨2, _⟩ => rfl)
    show val_main_v103 (F := Ideal) x0 x1 (ix2 n (0 : Fin 1)) = _
    rw [val_main_v103_apply, val_main_v94_apply, val_main_v93_apply, e]
    exact gram_stage x0 x1 n 0 2
  | ⟨3, _⟩ =>
    have e : idx_main_v95 (idx_main_v96 (idx_main_v104 (ix2 n (0 : Fin 1)))) = ix3 n (1 : Fin 3) (1 : Fin 3) :=
      funext fun a => Fin.ext (by match a with | ⟨0, _⟩ => exact Nat.div_one _ | ⟨1, _⟩ => rfl | ⟨2, _⟩ => rfl)
    show val_main_v104 (F := Ideal) x0 x1 (ix2 n (0 : Fin 1)) = _
    rw [val_main_v104_apply, val_main_v96_apply, val_main_v95_apply, e]
    exact gram_stage x0 x1 n 1 1
  | ⟨4, _⟩ =>
    have e : idx_main_v97 (idx_main_v98 (idx_main_v105 (ix2 n (0 : Fin 1)))) = ix3 n (1 : Fin 3) (2 : Fin 3) :=
      funext fun a => Fin.ext (by match a with | ⟨0, _⟩ => exact Nat.div_one _ | ⟨1, _⟩ => rfl | ⟨2, _⟩ => rfl)
    show val_main_v105 (F := Ideal) x0 x1 (ix2 n (0 : Fin 1)) = _
    rw [val_main_v105_apply, val_main_v98_apply, val_main_v97_apply, e]
    exact gram_stage x0 x1 n 1 2
  | ⟨5, _⟩ =>
    have e : idx_main_v99 (idx_main_v100 (idx_main_v106 (ix2 n (0 : Fin 1)))) = ix3 n (2 : Fin 3) (2 : Fin 3) :=
      funext fun a => Fin.ext (by match a with | ⟨0, _⟩ => exact Nat.div_one _ | ⟨1, _⟩ => rfl | ⟨2, _⟩ => rfl)
    show val_main_v106 (F := Ideal) x0 x1 (ix2 n (0 : Fin 1)) = _
    rw [val_main_v106_apply, val_main_v100_apply, val_main_v99_apply, e]
    exact gram_stage x0 x1 n 2 2

/-- The reference's result is the covariance array of its two arguments. -/
theorem ref_value : val_main_v107 (F := Ideal) x0 x1 = G x0 x1 := by
  funext i
  obtain ⟨n, q, rfl⟩ : ∃ (n : Fin 4000000) (q : Fin 6), i = ix2 n q := ⟨i 0, i 1, eq_ix2 i⟩
  rw [G_ix2]
  unfold val_main_v107
  show concatenate S4000000x6 1 (List.ofFn fun c : Fin 6 => (⟨S4000000x1, outCols x0 x1 c⟩ : (s : Shape) × (s.Idx → _))) _
    (ix2 n q) = _
  refine (concat_cols_apply (outCols x0 x1) _ n q).trans ?_
  exact outCols_apply x0 x1 n q

end Cert.ReferenceIdeal.Row

end
-- ==== Proof.lean ====
/- The proof of `Cert.Claim`: a kernel that builds, for four million Gaussians, the six distinct entries of the
   covariance `R diag(s²) Rᵀ` from a raw scale row and a raw quaternion row, against a reference that forms
   `L = R diag(s)` and the product `L Lᵀ`.

   Both programs activate the scales with the same two float words and the logistic function (one operation in the
   kernel, `1 / (1 + e^(-a))` on the host: one function on the extended reals), normalise the quaternion by the square
   root of its sum of squares, and form the same nine rotation entries with the same operand order. They differ only in
   how a covariance entry is grouped: the kernel adds `(R_ij R_kj)(s_j s_j)` over `j`, the reference
   `(R_ij s_j)(R_kj s_j)`. The two agree because the product of extended reals is commutative and associative, which holds
   at the infinities too, so the value claim does not use the finiteness of the inputs.

   Proof/RowCovariance.lean states the result as one function `G` of the two argument arrays and proves that law;
   Proof/KernelBlock.lean reads one stored block entry by entry and Proof/KernelArray.lean assembles the 1250 blocks into
   `G`; Proof/ReferenceRow.lean reads the reference's result entry by entry as `G`. The kernel's frames are the generated
   ones, the reference's frame is its generated run with the result dropped, and the idealization rewrote nothing. -/
import proofs.«178538_j12360915878348_1_alg».proof.Defs
import proofs.«178538_j12360915878348_1_alg».proof.Proof.Gen.Kernel
import proofs.«178538_j12360915878348_1_alg».proof.Proof.Gen.Kernel.Skeleton
import proofs.«178538_j12360915878348_1_alg».proof.Proof.Gen.Kernel.Launch
import proofs.«178538_j12360915878348_1_alg».proof.Proof.Gen.Kernel.Points
import proofs.«178538_j12360915878348_1_alg».proof.Proof.Gen.Kernel.Frame
import proofs.«178538_j12360915878348_1_alg».proof.Proof.Gen.KernelIdeal
import proofs.«178538_j12360915878348_1_alg».proof.Proof.Gen.KernelIdeal.Skeleton
import proofs.«178538_j12360915878348_1_alg».proof.Proof.Gen.KernelIdeal.Launch
import proofs.«178538_j12360915878348_1_alg».proof.Proof.Gen.KernelIdeal.Points
import proofs.«178538_j12360915878348_1_alg».proof.Proof.Gen.KernelIdeal.Frame
import proofs.«178538_j12360915878348_1_alg».proof.Proof.Gen.ReferenceIdeal
import proofs.«178538_j12360915878348_1_alg».proof.Proof.Gen.Pre_finite_inputs
import proofs.«178538_j12360915878348_1_alg».proof.Proof.Gen.KernelIdeal.Value
import proofs.«178538_j12360915878348_1_alg».proof.Proof.Gen.ReferenceIdeal.Run
import proofs.«178538_j12360915878348_1_alg».proof.Proof.Gen.ReferenceIdeal.Read
import proofs.«178538_j12360915878348_1_alg».proof.Proof.KernelArray
import proofs.«178538_j12360915878348_1_alg».proof.Proof.ReferenceRow
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the two arguments, both programs end with the covariance array `G` of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v107_eq, Cert.ReferenceIdeal.Row.ref_value, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
